-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x2048 : Shape := ⟨2, ![2048, 2048]⟩
abbrev S2048 : Shape := ⟨1, ![2048]⟩
abbrev S64 : Shape := ⟨1, ![64]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S2048 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  main_v28

def fn {F : FTy → Type} [FloatOps F] (main_arg0 : FVec F S16384x2048 .f32) (main_arg1 : FVec F S2048x2048 .f32) (main_arg2 : FVec F S2048 .f32) (main_arg3 : FVec F S64 .f32) (main_arg4 : FVec F S64 .f32) (main_arg5 : FVec F S2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S16384x2048 : Shape := ⟨2, ![16384, 2048]⟩
abbrev S2048x2048 : Shape := ⟨2, ![2048, 2048]⟩
abbrev S2048 : Shape := ⟨1, ![2048]⟩
abbrev S64 : Shape := ⟨1, ![64]⟩
abbrev S1x2048 : Shape := ⟨2, ![1, 2048]⟩
abbrev S1x64 : Shape := ⟨2, ![1, 64]⟩
abbrev S256x2048 : Shape := ⟨2, ![256, 2048]⟩
abbrev S256x64x32 : Shape := ⟨3, ![256, 64, 32]⟩
abbrev S256x64 : Shape := ⟨2, ![256, 64]⟩
abbrev S256x64x1 : Shape := ⟨3, ![256, 64, 1]⟩
abbrev S1x64x1 : Shape := ⟨3, ![1, 64, 1]⟩

abbrev nBuf : Space → Nat
  | .hbm => 12
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048, .f32⟩
  | .hbm, ⟨3, _⟩ => ⟨S64, .f32⟩
  | .hbm, ⟨4, _⟩ => ⟨S64, .f32⟩
  | .hbm, ⟨5, _⟩ => ⟨S2048, .f32⟩
  | .hbm, ⟨6, _⟩ => ⟨S2048x2048, .bf16⟩
  | .hbm, ⟨7, _⟩ => ⟨S1x2048, .f32⟩
  | .hbm, ⟨8, _⟩ => ⟨S1x64, .f32⟩
  | .hbm, ⟨9, _⟩ => ⟨S1x64, .f32⟩
  | .hbm, ⟨10, _⟩ => ⟨S1x2048, .f32⟩
  | .hbm, ⟨11, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S1x2048, .f32⟩
  | .local _ .vmem, ⟨4, _⟩ => ⟨S1x64, .f32⟩
  | .local _ .vmem, ⟨5, _⟩ => ⟨S1x64, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  shapeCasts_S2048_S1x2048 : S2048.ShapeCasts S1x2048
  shapeCasts_S64_S1x64 : S64.ShapeCasts S1x64
  inb_S256x2048_S256x2048_0_0 : ∀ a, (![0, 0] : Fin 2 → Nat) a + S256x2048.size a ≤ S256x2048.size a
  h_S256x2048 : 0 < S256x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  transposes_S2048x2048_p1_0_S2048x2048 : S2048x2048.Transposes [1, 0] S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  shapeCasts_S256x2048_S256x64x32 : S256x2048.ShapeCasts S256x64x32
  reduces_S256x64x32_S256x64 : S256x64x32.Reduces [2] S256x64
  shapeCasts_S256x64_S256x64x1 : S256x64.ShapeCasts S256x64x1
  broadcasts_S256x64x1_S256x64x32 : S256x64x1.Broadcasts S256x64x32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S1x64_S1x64x1 : S1x64.ShapeCasts S1x64x1
  broadcasts_S1x64x1_S256x64x32 : S1x64x1.Broadcasts S256x64x32
  shapeCasts_S256x64x32_S256x2048 : S256x64x32.ShapeCasts S256x2048
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S16384x2048.size a
  hwx0_0 : ∀ i : grid0.Coords, EltTy.bits .f32 = 32 ∨ (Rect.block (s := S16384x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S16384x2048.size a
  hwx0_6 : ∀ i : grid0.Coords, EltTy.bits .f32 = 32 ∨ (Rect.block (s := S16384x2048) S256x2048.size (cc0_transform_6 i) (hinb0_6 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S256x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2048x2048 : Shape := ⟨2, ![2048, 2048]⟩
abbrev S2048 : Shape := ⟨1, ![2048]⟩
abbrev S64 : Shape := ⟨1, ![64]⟩
abbrev S1x2048 : Shape := ⟨2, ![1, 2048]⟩
abbrev S16384x64x32 : Shape := ⟨3, ![16384, 64, 32]⟩
abbrev S_ : Shape := ⟨0, ![]⟩
abbrev S16384x64 : Shape := ⟨2, ![16384, 64]⟩
abbrev S16384x64x1 : Shape := ⟨3, ![16384, 64, 1]⟩
abbrev S1x64x1 : Shape := ⟨3, ![1, 64, 1]⟩

abbrev nBuf : Space → Nat
  | .hbm => 62
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048, .f32⟩
  | .hbm, ⟨3, _⟩ => ⟨S64, .f32⟩
  | .hbm, ⟨4, _⟩ => ⟨S64, .f32⟩
  | .hbm, ⟨5, _⟩ => ⟨S2048, .f32⟩
  | .hbm, ⟨6, _⟩ => ⟨S16384x2048, .f32⟩
  | .hbm, ⟨7, _⟩ => ⟨S1x2048, .f32⟩
  | .hbm, ⟨8, _⟩ => ⟨S16384x2048, .f32⟩
  | .hbm, ⟨9, _⟩ => ⟨S16384x2048, .f32⟩
  | .hbm, ⟨10, _⟩ => ⟨S16384x64x32, .f32⟩
  | .hbm, ⟨11, _⟩ => ⟨S_, .f32⟩
  | .hbm, ⟨12, _⟩ => ⟨S16384x64, .f32⟩
  | .hbm, ⟨13, _⟩ => ⟨S16384x64x1, .f32⟩
  | .hbm, ⟨14, _⟩ => ⟨S_, .f32⟩
  | .hbm, ⟨15, _⟩ => ⟨S16384x64x1, .f32⟩
  | .hbm, ⟨16, _⟩ => ⟨S16384x64x1, .f32⟩
  | .hbm, ⟨17, _⟩ => ⟨S16384x64x32, .f32⟩
  | .hbm, ⟨18, _⟩ => ⟨S16384x64x32, .f32⟩
  | .hbm, ⟨19, _⟩ => ⟨S16384x64x32, .f32⟩
  | .hbm, ⟨20, _⟩ => ⟨S_, .f32⟩
  | .hbm, ⟨21, _⟩ => ⟨S16384x64, .f32⟩
  | .hbm, ⟨22, _⟩ => ⟨S16384x64x1, .f32⟩
  | .hbm, ⟨23, _⟩ => ⟨S_, .f32⟩
  | .hbm, ⟨24, _⟩ => ⟨S16384x64x1, .f32⟩
  | .hbm, ⟨25, _⟩ => ⟨S16384x64x1, .f32⟩
  | .hbm, ⟨26, _⟩ => ⟨S16384x64x32, .f32⟩
  | .hbm, ⟨27, _⟩ => ⟨S16384x64x32, .f32⟩
  | .hbm, ⟨28, _⟩ => ⟨S_, .f32⟩
  | .hbm, ⟨29, _⟩ => ⟨S16384x64x1, .f32⟩
  | .hbm, ⟨30, _⟩ => ⟨S16384x64x1, .f32⟩
  | .hbm, ⟨31, _⟩ => ⟨S16384x64x1, .f32⟩
  | .hbm, ⟨32, _⟩ => ⟨S16384x64x32, .f32⟩
  | .hbm, ⟨33, _⟩ => ⟨S16384x64x32, .f32⟩
  | .hbm, ⟨34, _⟩ => ⟨S1x64x1, .f32⟩
  | .hbm, ⟨35, _⟩ => ⟨S16384x64x32, .f32⟩
  | .hbm, ⟨36, _⟩ => ⟨S16384x64x32, .f32⟩
  | .hbm, ⟨37, _⟩ => ⟨S1x64x1, .f32⟩
  | .hbm, ⟨38, _⟩ => ⟨S16384x64x32, .f32⟩
  | .hbm, ⟨39, _⟩ => ⟨S16384x64x32, .f32⟩
  | .hbm, ⟨40, _⟩ => ⟨S16384x2048, .f32⟩
  | .hbm, ⟨41, _⟩ => ⟨S16384x2048, .f32⟩
  | .hbm, ⟨42, _⟩ => ⟨S16384x2048, .f32⟩
  | .hbm, ⟨43, _⟩ => ⟨S_, .f32⟩
  | .hbm, ⟨44, _⟩ => ⟨S16384x2048, .f32⟩
  | .hbm, ⟨45, _⟩ => ⟨S16384x2048, .f32⟩
  | .hbm, ⟨46, _⟩ => ⟨S_, .f32⟩
  | .hbm, ⟨47, _⟩ => ⟨S16384x2048, .f32⟩
  | .hbm, ⟨48, _⟩ => ⟨S16384x2048, .f32⟩
  | .hbm, ⟨49, _⟩ => ⟨S16384x2048, .f32⟩
  | .hbm, ⟨50, _⟩ => ⟨S1x2048, .f32⟩
  | .hbm, ⟨51, _⟩ => ⟨S16384x2048, .f32⟩
  | .hbm, ⟨52, _⟩ => ⟨S16384x2048, .f32⟩
  | .hbm, ⟨53, _⟩ => ⟨S16384x2048, .f32⟩
  | .hbm, ⟨54, _⟩ => ⟨S16384x2048, .f32⟩
  | .hbm, ⟨55, _⟩ => ⟨S_, .f32⟩
  | .hbm, ⟨56, _⟩ => ⟨S16384x2048, .f32⟩
  | .hbm, ⟨57, _⟩ => ⟨S16384x2048, .f32⟩
  | .hbm, ⟨58, _⟩ => ⟨S_, .f32⟩
  | .hbm, ⟨59, _⟩ => ⟨S16384x2048, .f32⟩
  | .hbm, ⟨60, _⟩ => ⟨S16384x2048, .f32⟩
  | .hbm, ⟨61, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  shapeCasts_S16384x2048_S16384x64x32 : S16384x2048.ShapeCasts S16384x64x32
  reducesTo_S16384x64x32_S16384x64_d2 : S16384x64x32.ReducesTo [2] S16384x64
  h_S_ : 0 < S_.numel
  bcast_S16384x64_S16384x64x1_0_1 : S16384x64.BroadcastsInDim S16384x64x1 (![0, 1] : Fin 2 → Fin S16384x64x1.rank)
  bcast_S_S16384x64x1 : S_.BroadcastsInDim S16384x64x1 (![] : Fin 0 → Fin S16384x64x1.rank)
  bcast_S16384x64x1_S16384x64x32_0_1_2 : S16384x64x1.BroadcastsInDim S16384x64x32 (![0, 1, 2] : Fin 3 → Fin S16384x64x32.rank)
  bcast_S64_S1x64x1_1 : S64.BroadcastsInDim S1x64x1 (![1] : Fin 1 → Fin S1x64x1.rank)
  bcast_S1x64x1_S16384x64x32_0_1_2 : S1x64x1.BroadcastsInDim S16384x64x32 (![0, 1, 2] : Fin 3 → Fin S16384x64x32.rank)
  shapeCasts_S16384x64x32_S16384x2048 : S16384x64x32.ShapeCasts S16384x2048
  bcast_S_S16384x2048 : S_.BroadcastsInDim S16384x2048 (![] : Fin 0 → Fin S16384x2048.rank)
  dot_S16384x2048_S2048x2048_S16384x2048_1_1_0_0_n_n_wf : DotDims.WF S16384x2048 S2048x2048 S16384x2048 [1] [1] [0] [0] [] []

variable [Facts₀]

def dot_S16384x2048_S2048x2048_S16384x2048_1_1_0_0_n_n : DotDims S16384x2048 S2048x2048 S16384x2048 where
  lhsContracting := [1]
  rhsContracting := [1]
  lhsNonContracting := [0]
  rhsNonContracting := [0]
  lhsBatch := []
  rhsBatch := []
  wf := dot_S16384x2048_S2048x2048_S16384x2048_1_1_0_0_n_n_wf

class Facts : Prop extends Facts₀ where

variable [Facts]
-- ==== Proof.Spec.lean ====
/-
  The specification: what both programs compute, as ONE function of the argument arrays, read on the
  extended reals.

  Row `r` of the result depends on row `r` of `x` alone. First the linear layer: `y n = (∑ k, x r k · w n k) + b n`
  (the weight is used transposed: output feature `n` pairs with row `n` of `w`). The 2048 features fall into
  64 groups of 32 consecutive ones, feature `32 g + s` being lane `s` of group `g`. In each group the mean and the
  (biased) variance are taken over the 32 lanes, the entry is centred and scaled by `(var + ε)^(-1/2)`, then by the
  group's weight and shifted by its bias. The entry then goes through `a ↦ a · σ(a)` (σ the logistic function), is
  multiplied by its feature's scale, and goes through `a ↦ a · σ(a)` once more.
-/
import Idealize.ShloMosaic.PureOps.Ideal.Laws
import Idealize.ShloMosaic.Lib.ValueIdx
import Idealize.ShloMosaic.Lib.IdealHost

noncomputable section

open Idealize.ShloMosaic Idealize.ShloMosaic.ValueIdx
open scoped BigOperators

namespace Cert.GroupNormSilu

/-- Feature `32 g + s`: lane `s` of group `g`. -/
abbrev feat (g : Fin 64) (s : Fin 32) : Fin 2048 := ⟨g.val * 32 + s.val, by have := g.isLt; have := s.isLt; omega⟩

/-- The group of feature `n`. -/
abbrev grpOf (n : Fin 2048) : Fin 64 := ⟨n.val / 32, by have := n.isLt; omega⟩

/-- The lane of feature `n` inside its group. -/
abbrev laneOf (n : Fin 2048) : Fin 32 := ⟨n.val % 32, Nat.mod_lt _ (by norm_num)⟩

/-- The group size, 32, as both programs write it. -/
abbrev c32 : EReal := Ideal.ofBits .f32 0x42000000#32

/-- The variance's ε, the same word in both programs. -/
abbrev cEps : EReal := Ideal.ofBits .f32 0x3727C5AC#32

/-- The linear layer on one row `xr`: output feature `n` pairs the row with row `n` of the weight. -/
def lin (xr : Fin 2048 → EReal) (w : (⟨2, ![2048, 2048]⟩ : Shape).Idx → EReal) (b : Fin 2048 → EReal) (n : Fin 2048) : EReal :=
  (∑ k : Fin 2048, xr k * w (ix2 n k)) + b n

/-- The mean of group `g` of a row `y`. -/
def mean (y : Fin 2048 → EReal) (g : Fin 64) : EReal := Ideal.div (∑ s : Fin 32, y (feat g s)) c32

/-- The centred entry. -/
def dev (y : Fin 2048 → EReal) (g : Fin 64) (s : Fin 32) : EReal := y (feat g s) - mean y g

/-- The variance of group `g`. -/
def var (y : Fin 2048 → EReal) (g : Fin 64) : EReal := Ideal.div (∑ s : Fin 32, dev y g s * dev y g s) c32

/-- The normalized entry with the group's affine map applied. -/
def normed (y : Fin 2048 → EReal) (gw gb : Fin 64 → EReal) (g : Fin 64) (s : Fin 32) : EReal :=
  dev y g s * Ideal.rsqrt (var y g + cEps) * gw g + gb g

/-- `a · σ(a)`. -/
def silu (a : EReal) : EReal := a * Ideal.logistic a

/-- The tail: `a · σ(a)`, times the feature's scale, and `a · σ(a)` again. -/
def tail (a mw : EReal) : EReal := silu (silu a * mw)

/-- The result at row `r`, feature `n`, from the row `xr` of `x`. -/
def outRow (xr : Fin 2048 → EReal) (w : (⟨2, ![2048, 2048]⟩ : Shape).Idx → EReal) (b : Fin 2048 → EReal)
    (gw gb : Fin 64 → EReal) (mw : Fin 2048 → EReal) (n : Fin 2048) : EReal :=
  tail (normed (lin xr w b) gw gb (grpOf n) (laneOf n)) (mw n)

/-- The whole result array. -/
def G (x : (⟨2, ![16384, 2048]⟩ : Shape).Idx → EReal) (w : (⟨2, ![2048, 2048]⟩ : Shape).Idx → EReal)
    (b : (⟨1, ![2048]⟩ : Shape).Idx → EReal) (gw gb : (⟨1, ![64]⟩ : Shape).Idx → EReal) (mw : (⟨1, ![2048]⟩ : Shape).Idx → EReal) :
    (⟨2, ![16384, 2048]⟩ : Shape).Idx → EReal := fun i =>
  outRow (fun k => x (ix2 (i 0) k)) w (fun n => b (ix1 n)) (fun g => gw (ix1 g)) (fun g => gb (ix1 g)) (fun n => mw (ix1 n)) (i 1)

/-- The host's spelling of the logistic function, `1 / (1 + e^(-a))` with both ones the word of `1.0`, is the logistic
    function. -/
theorem logistic_spelled (a : EReal) :
    Ideal.div (Ideal.ofBits .f32 0x3F800000#32) (Ideal.ofBits .f32 0x3F800000#32 + Ideal.exp (-a)) = Ideal.logistic a := by
  rw [Ideal.ofBits_one_f32]; rfl

end Cert.GroupNormSilu

end
-- ==== Proof.Ref.lean ====
/-
  The reference computes the specification.

  The reference is read one stretch at a time, each stretch at a general index of its own shape and landing on
  one function of the specification: the linear layer (a contraction of row `i 0` of `x` with row `i 1` of the
  weight, plus the bias), its regrouping into 64 groups of 32 lanes (entry (r, g, s) is feature `32 g + s` of row
  `r`), the group mean and variance (the host's sums start from the zero word, which adds nothing), the
  normalized and affinely mapped entry, the flattening back (feature `n` is lane `n % 32` of group `n / 32`), and
  the tail, where the host spells the logistic function as `1 / (1 + e^(-a))`.
-/
import proofs.«126139_j3556232922214_1_alg».proof.Proof.Gen.ReferenceIdeal.Read
import proofs.«126139_j3556232922214_1_alg».proof.Proof.Spec

noncomputable section

open Idealize.ShloMosaic Idealize.ShloMosaic.ValueIdx
open scoped BigOperators

namespace Cert.ReferenceIdeal.RefValue

open Cert.ReferenceIdeal Cert.ReferenceIdeal.Read Cert.GroupNormSilu

variable (x0 : FVec Ideal S16384x2048 .f32) (x1 : FVec Ideal S2048x2048 .f32) (x2 : FVec Ideal S2048 .f32)
  (x3 x4 : FVec Ideal S64 .f32) (x5 : FVec Ideal S2048 .f32)

/-- Row `r` of the linear layer's output. -/
abbrev yRow (r : Fin 16384) : Fin 2048 → EReal := lin (fun k => x0 (ix2 r k)) x1 (fun n => x2 (ix1 n))

/-- The contraction reads `x` at (row, k) … -/
theorem lhs_index (i : S16384x2048.Idx) (k : Fin 2048) : lidx_main_v0 i k = ix2 (i 0) k :=
  funext fun a => by match a with | ⟨0, _⟩ => rfl | ⟨1, _⟩ => rfl

/-- … and the weight at (feature, k). -/
theorem rhs_index (i : S16384x2048.Idx) (k : Fin 2048) : ridx_main_v0 i k = ix2 (i 1) k :=
  funext fun a => by match a with | ⟨0, _⟩ => rfl | ⟨1, _⟩ => rfl

/-- The bias is read at the feature. -/
theorem bias_index (i : S16384x2048.Idx) : idx_main_v1 (idx_main_v2 i) = ix1 (i 1) :=
  funext fun a => by match a with | ⟨0, _⟩ => rfl

/-- The linear layer at (row, feature). -/
theorem lin_at (i : S16384x2048.Idx) : val_main_v3 (F := Ideal) x0 x1 x2 i = yRow x0 x1 x2 (i 0) (i 1) := by
  rw [val_main_v3_apply, val_main_v0_apply, val_main_v2_apply, val_main_v1_apply, bias_index]
  show (∑ k : Fin 2048, x0 (lidx_main_v0 i k) * x1 (ridx_main_v0 i k)) + x2 (ix1 (i 1))
    = (∑ k : Fin 2048, x0 (ix2 (i 0) k) * x1 (ix2 (i 1) k)) + x2 (ix1 (i 1))
  congr 1
  exact Finset.sum_congr rfl fun k _ => by rw [lhs_index, rhs_index]; rfl

/-- Regrouped: entry (r, g, s) is feature `32 g + s` of row `r`. -/
theorem grouped_at (j : S16384x64x32.Idx) :
    val_main_v4 (F := Ideal) x0 x1 x2 j = yRow x0 x1 x2 (j 0) (feat (j 1) (j 2)) := by
  have h0 : (j 0).val < 16384 := (j 0).isLt
  have h1 : (j 1).val < 64 := (j 1).isLt
  have h2 : (j 2).val < 32 := (j 2).isLt
  have e0 : idx_main_v4 j 0 = j 0 := Fin.ext (by
    show (((j 0).val * 64 + (j 1).val) * 32 + (j 2).val) / 2048 = (j 0).val; omega)
  have e1 : idx_main_v4 j 1 = feat (j 1) (j 2) := Fin.ext (by
    show (((j 0).val * 64 + (j 1).val) * 32 + (j 2).val) % 2048 = (j 1).val * 32 + (j 2).val; omega)
  rw [val_main_v4_apply, lin_at, e0, e1]

/-- The group mean. -/
theorem mean_at (j : S16384x64x1.Idx) :
    val_main_v8 (F := Ideal) x0 x1 x2 j = mean (yRow x0 x1 x2 (j 0)) (j 1) := by
  rw [val_main_v8_apply, val_main_v6_apply, val_main_v7_apply, val_main_cst_0_apply, val_main_v5_apply, val_main_cst_apply]
  show Ideal.div (Ideal.ofBits .f32 0x00000000#32
      + ∑ k : Fin 32, val_main_v4 (F := Ideal) x0 x1 x2 (idx_main_v5 (idx_main_v6 j) k)) c32
    = Ideal.div (∑ s : Fin 32, yRow x0 x1 x2 (j 0) (feat (j 1) s)) c32
  rw [Ideal.ofBits_zero_f32, zero_add]
  congr 1
  exact Finset.sum_congr rfl fun k _ => by rw [grouped_at]; rfl

/-- The centred entry, as the variance's square reads it … -/
theorem dev_sq_at (j : S16384x64x32.Idx) :
    val_main_v10 (F := Ideal) x0 x1 x2 j = dev (yRow x0 x1 x2 (j 0)) (j 1) (j 2) := by
  rw [val_main_v10_apply, val_main_v9_apply, grouped_at, mean_at]; rfl

/-- … and as the normalization reads it. -/
theorem dev_at (j : S16384x64x32.Idx) :
    val_main_v17 (F := Ideal) x0 x1 x2 j = dev (yRow x0 x1 x2 (j 0)) (j 1) (j 2) := by
  rw [val_main_v17_apply, val_main_v16_apply, grouped_at, mean_at]; rfl

/-- The group variance. -/
theorem var_at (j : S16384x64x1.Idx) :
    val_main_v15 (F := Ideal) x0 x1 x2 j = var (yRow x0 x1 x2 (j 0)) (j 1) := by
  rw [val_main_v15_apply, val_main_v13_apply, val_main_v14_apply, val_main_cst_2_apply, val_main_v12_apply, val_main_cst_1_apply]
  show Ideal.div (Ideal.ofBits .f32 0x00000000#32
      + ∑ k : Fin 32, val_main_v11 (F := Ideal) x0 x1 x2 (idx_main_v12 (idx_main_v13 j) k)) c32
    = Ideal.div (∑ s : Fin 32, dev (yRow x0 x1 x2 (j 0)) (j 1) s * dev (yRow x0 x1 x2 (j 0)) (j 1) s) c32
  rw [Ideal.ofBits_zero_f32, zero_add]
  congr 1
  exact Finset.sum_congr rfl fun k _ => by rw [val_main_v11_apply, dev_sq_at]; rfl

/-- The group's weight is read at the group … -/
theorem gw_index (j : S16384x64x32.Idx) : idx_main_v23 (idx_main_v24 j) = ix1 (j 1) :=
  funext fun a => by match a with | ⟨0, _⟩ => rfl

/-- … and so is its bias. -/
theorem gb_index (j : S16384x64x32.Idx) : idx_main_v26 (idx_main_v27 j) = ix1 (j 1) :=
  funext fun a => by match a with | ⟨0, _⟩ => rfl

/-- The normalized entry under the group's affine map. -/
theorem normed_at (j : S16384x64x32.Idx) :
    val_main_v28 (F := Ideal) x0 x1 x2 x3 x4 j
      = normed (yRow x0 x1 x2 (j 0)) (fun g => x3 (ix1 g)) (fun g => x4 (ix1 g)) (j 1) (j 2) := by
  rw [val_main_v28_apply, val_main_v25_apply, val_main_v22_apply, dev_at, val_main_v21_apply, val_main_v20_apply,
    val_main_v19_apply, var_at, val_main_v18_apply, val_main_cst_3_apply, val_main_v24_apply, val_main_v23_apply,
    val_main_v27_apply, val_main_v26_apply, gw_index, gb_index]
  rfl

/-- Flattened back: feature `n` is lane `n % 32` of group `n / 32`. -/
theorem flat_at (i : S16384x2048.Idx) :
    val_main_v29 (F := Ideal) x0 x1 x2 x3 x4 i
      = normed (yRow x0 x1 x2 (i 0)) (fun g => x3 (ix1 g)) (fun g => x4 (ix1 g)) (grpOf (i 1)) (laneOf (i 1)) := by
  have h0 : (i 0).val < 16384 := (i 0).isLt
  have h1 : (i 1).val < 2048 := (i 1).isLt
  have e0 : idx_main_v29 i 0 = i 0 := Fin.ext (by
    show ((i 0).val * 2048 + (i 1).val) / 2048 = (i 0).val; omega)
  have e1 : idx_main_v29 i 1 = grpOf (i 1) := Fin.ext (by
    show ((i 0).val * 2048 + (i 1).val) / 32 % 64 = (i 1).val / 32; omega)
  have e2 : idx_main_v29 i 2 = laneOf (i 1) := Fin.ext (by
    show ((i 0).val * 2048 + (i 1).val) % 32 = (i 1).val % 32; omega)
  rw [val_main_v29_apply, normed_at, e0, e1, e2]

/-- The feature's scale is read at the feature. -/
theorem scale_index (i : S16384x2048.Idx) : idx_main_v37 (idx_main_v38 i) = ix1 (i 1) :=
  funext fun a => by match a with | ⟨0, _⟩ => rfl

/-- The reference's result is the specification. -/
theorem result_eq : val_main_v46 (F := Ideal) x0 x1 x2 x3 x4 x5 = G x0 x1 x2 x3 x4 x5 := by
  funext i
  rw [val_main_v46_apply, val_main_v45_apply, val_main_v44_apply, val_main_cst_7_apply, val_main_v43_apply,
    val_main_v42_apply, val_main_cst_6_apply, val_main_v41_apply, val_main_v40_apply, val_main_v39_apply,
    val_main_v38_apply, val_main_v37_apply, scale_index, val_main_v36_apply, val_main_v35_apply, val_main_v34_apply,
    val_main_cst_5_apply, val_main_v33_apply, val_main_v32_apply, val_main_cst_4_apply, val_main_v31_apply,
    val_main_v30_apply, flat_at]
  simp only [Ideal.mulf_def, Ideal.hostDivf_def, Ideal.addf_def, Ideal.hostUnary_exp_def, Ideal.hostNegf_def,
    Ideal.negf_def, Ideal.ofBits_def, logistic_spelled]
  rfl

end Cert.ReferenceIdeal.RefValue

end
-- ==== Proof.Kern.lean ====
/-
  What the kernel body leaves in one output block, index by index.

  The body works on a block of 256 rows of `x` (`P0`), the whole weight (`P1`), and the bias, the two group
  parameters and the feature scale as one-row arrays (`P2` … `P5`). Its arithmetic is cut here into named stages:
  the linear layer (the matrix product contracts a row of the block with a COLUMN of the transposed weight, which is
  a row of the weight; the accumulator is the zero splat, so the product is the bare sum), the regrouping into
  256 × 64 × 32, the group mean and variance (lane sums, then a division by 32, kept with a trailing unit axis and
  broadcast back over the lanes), the normalized and affinely mapped entry, and the flattening. Each stage is read at
  a general index of its shape and is the specification's function of row `i 0` of the block.
-/
import proofs.«126139_j3556232922214_1_alg».proof.Proof.Gen.KernelIdeal.Value
import proofs.«126139_j3556232922214_1_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.ValueIdx
open scoped BigOperators

namespace Cert.KernelIdeal.BodyValue

open Cert.KernelIdeal Cert.KernelIdeal.Gen Cert.GroupNormSilu

/-! ## The matrix product at an index -/

theorem lhs_axis0 (i : S256x2048.Idx) (q : dot_S256x2048_S2048x2048_S256x2048_1_0_0_1_n_n.contr.Idx) :
    (dot_S256x2048_S2048x2048_S256x2048_1_0_0_1_n_n.lhsIdx i q 0).val = (i 0).val := by
  unfold DotDims.lhsIdx
  rw [dif_neg (show ¬(0 : Fin S256x2048.rank) ∈ dot_S256x2048_S2048x2048_S256x2048_1_0_0_1_n_n.lhsBatch by decide), dif_pos (show (0 : Fin S256x2048.rank) ∈ dot_S256x2048_S2048x2048_S256x2048_1_0_0_1_n_n.lhsNonContracting by decide)]
  rfl
theorem lhs_axis1 (i : S256x2048.Idx) (q : dot_S256x2048_S2048x2048_S256x2048_1_0_0_1_n_n.contr.Idx) :
    (dot_S256x2048_S2048x2048_S256x2048_1_0_0_1_n_n.lhsIdx i q 1).val = (q ⟨0, by decide⟩).val :=
  dot_S256x2048_S2048x2048_S256x2048_1_0_0_1_n_n.lhsIdx_val_of_single rfl i q
theorem rhs_axis0 (i : S256x2048.Idx) (q : dot_S256x2048_S2048x2048_S256x2048_1_0_0_1_n_n.contr.Idx) :
    (dot_S256x2048_S2048x2048_S256x2048_1_0_0_1_n_n.rhsIdx i q 0).val = (q ⟨0, by decide⟩).val :=
  dot_S256x2048_S2048x2048_S256x2048_1_0_0_1_n_n.rhsIdx_val_of_single rfl i q
theorem rhs_axis1 (i : S256x2048.Idx) (q : dot_S256x2048_S2048x2048_S256x2048_1_0_0_1_n_n.contr.Idx) :
    (dot_S256x2048_S2048x2048_S256x2048_1_0_0_1_n_n.rhsIdx i q 1).val = (i 1).val := by
  unfold DotDims.rhsIdx
  rw [dif_neg (show ¬(1 : Fin S2048x2048.rank) ∈ dot_S256x2048_S2048x2048_S256x2048_1_0_0_1_n_n.rhsBatch by decide), dif_pos (show (1 : Fin S2048x2048.rank) ∈ dot_S256x2048_S2048x2048_S256x2048_1_0_0_1_n_n.rhsNonContracting by decide)]
  rfl

/-- Into the zero splat, entry (p, q) of the product is `∑ k, A (p, k) · B (k, q)`. -/
theorem matmul_at (A : FVec Ideal S256x2048 .bf16) (B : FVec Ideal S2048x2048 .bf16) (p : Fin 256) (q : Fin 2048) :
    matmul dot_S256x2048_S2048x2048_S256x2048_1_0_0_1_n_n none A B (constant S256x2048 .f32 0x00000000#32) (ix2 p q)
      = ∑ k : Fin 2048, A (ix2 p k) * B (ix2 k q) := by
  simp only [matmul]
  rw [Ideal.matmul_constant_zero_apply, ← Equiv.sum_comp (ValueIdx.contrEquiv1 dot_S256x2048_S2048x2048_S256x2048_1_0_0_1_n_n 2048 rfl rfl).symm]
  refine Finset.sum_congr rfl fun k _ => ?_
  have hk := ValueIdx.contrEquiv1_symm_val dot_S256x2048_S2048x2048_S256x2048_1_0_0_1_n_n 2048 rfl rfl k
  have el : dot_S256x2048_S2048x2048_S256x2048_1_0_0_1_n_n.lhsIdx (ix2 p q) ((ValueIdx.contrEquiv1 dot_S256x2048_S2048x2048_S256x2048_1_0_0_1_n_n 2048 rfl rfl).symm k) = ix2 p k := funext fun a => Fin.ext (by
    match a with
    | ⟨0, _⟩ => exact lhs_axis0 _ _
    | ⟨1, _⟩ => exact (lhs_axis1 _ _).trans hk)
  have er : dot_S256x2048_S2048x2048_S256x2048_1_0_0_1_n_n.rhsIdx (ix2 p q) ((ValueIdx.contrEquiv1 dot_S256x2048_S2048x2048_S256x2048_1_0_0_1_n_n 2048 rfl rfl).symm k) = ix2 k q := funext fun a => Fin.ext (by
    match a with
    | ⟨0, _⟩ => exact (rhs_axis0 _ _).trans hk
    | ⟨1, _⟩ => exact rhs_axis1 _ _)
  rw [el, er]

/-! ## The lane sum at an index -/

/-- The sum over the 32 lanes of each group, from the zero word. -/
def laneSum (v : FVec Ideal S256x64x32 .f32) : FVec Ideal S256x64 .f32 :=
  multiReduction .add [2] S256x64 v 0x00000000#32 reduces_S256x64x32_S256x64 (.inl rfl) rfl

/-- Entry (p, g) of the lane sum is `∑ s, v (p, g, s)`. -/
theorem laneSum_at (v : FVec Ideal S256x64x32 .f32) (j : S256x64.Idx) :
    laneSum v j = ∑ s : Fin 32, v (ix3 (j 0) (j 1) s) := by
  refine (Ideal.multiReduction_add_single v 0x00000000#32 reduces_S256x64x32_S256x64 (.inl rfl) rfl j).trans ?_
  exact Finset.sum_congr rfl fun s _ => congrArg v (funext fun a => Fin.ext (by
    match a with
    | ⟨0, _⟩ => rfl
    | ⟨1, _⟩ => rfl
    | ⟨2, _⟩ => rfl))

/-! ## The body's stages -/

variable (P0 : FVec Ideal S256x2048 .f32) (P1 : FVec Ideal S2048x2048 .bf16) (P2 : FVec Ideal S1x2048 .f32)
  (P3 P4 : FVec Ideal S1x64 .f32)

/-- The linear layer on the block. -/
def kLin : FVec Ideal S256x2048 .f32 :=
  addf (matmul dot_S256x2048_S2048x2048_S256x2048_1_0_0_1_n_n none (truncf .bf16 P0 bitsLt_bf16_f32)
      (transpose S2048x2048 [1, 0] (shapeCast S2048x2048 P1 shapeCasts_S2048x2048_S2048x2048) transposes_S2048x2048_p1_0_S2048x2048)
      (constant S256x2048 .f32 0x00000000#32))
    (broadcastTo S256x2048 (shapeCast S1x2048 P2 shapeCasts_S1x2048_S1x2048) broadcasts_S1x2048_S256x2048)

/-- Regrouped into rows × groups × lanes. -/
def kGrouped : FVec Ideal S256x64x32 .f32 := shapeCast S256x64x32 (kLin P0 P1 P2) shapeCasts_S256x2048_S256x64x32

/-- The group means, with a trailing unit axis. -/
def kMean : FVec Ideal S256x64x1 .f32 :=
  divf (shapeCast S256x64x1 (laneSum (kGrouped P0 P1 P2)) shapeCasts_S256x64_S256x64x1)
    (broadcast S256x64x1 (Scalar.ofBits .f32 0x42000000#32))

/-- The centred entries. -/
def kDev : FVec Ideal S256x64x32 .f32 :=
  subf (kGrouped P0 P1 P2) (broadcastTo S256x64x32 (kMean P0 P1 P2) broadcasts_S256x64x1_S256x64x32)

/-- The group variances, with a trailing unit axis. -/
def kVar : FVec Ideal S256x64x1 .f32 :=
  divf (shapeCast S256x64x1 (laneSum (mulf (kDev P0 P1 P2) (kDev P0 P1 P2))) shapeCasts_S256x64_S256x64x1)
    (broadcast S256x64x1 (Scalar.ofBits .f32 0x42000000#32))

/-- The normalized entries under the groups' affine maps. -/
def kNormed : FVec Ideal S256x64x32 .f32 :=
  addf (mulf (mulf (kDev P0 P1 P2)
        (broadcastTo S256x64x32 (rsqrt (addf (kVar P0 P1 P2) (broadcast S256x64x1 (Scalar.ofBits .f32 0x3727C5AC#32)))) broadcasts_S256x64x1_S256x64x32))
      (broadcastTo S256x64x32 (shapeCast S1x64x1 (shapeCast S1x64 P3 shapeCasts_S1x64_S1x64) shapeCasts_S1x64_S1x64x1) broadcasts_S1x64x1_S256x64x32))
    (broadcastTo S256x64x32 (shapeCast S1x64x1 (shapeCast S1x64 P4 shapeCasts_S1x64_S1x64) shapeCasts_S1x64_S1x64x1) broadcasts_S1x64x1_S256x64x32)

/-- Flattened back to rows × features. -/
def kFlat : FVec Ideal S256x2048 .f32 := shapeCast S256x2048 (kNormed P0 P1 P2 P3 P4) shapeCasts_S256x64x32_S256x2048

set_option maxRecDepth 65536 in
/-- The body's first payload is `a · σ(a)` of the flattened stage: the stages above are its text. -/
theorem pay2_eq : k0_pay2 (F := Ideal) P0 P1 P2 P3 P4 = mulf (kFlat P0 P1 P2 P3 P4) (logistic (kFlat P0 P1 P2 P3 P4)) := rfl

/-! ## Each stage at an index -/

/-- Row `p` of the block's linear layer. -/
abbrev yBlk (p : Fin 256) : Fin 2048 → EReal := lin (fun k => P0 (ix2 p k)) P1 (fun n => P2 (ix2 0 n))

theorem lin_at (i : S256x2048.Idx) : kLin P0 P1 P2 i = yBlk P0 P1 P2 (i 0) (i 1) := by
  obtain ⟨p, q, rfl⟩ : ∃ (p : Fin 256) (q : Fin 2048), i = ix2 p q := ⟨i 0, i 1, eq_ix2 i⟩
  unfold kLin
  rw [addf_apply, matmul_at]
  show (∑ k : Fin 2048, _) + _ = (∑ k : Fin 2048, P0 (ix2 p k) * P1 (ix2 q k)) + P2 (ix2 0 q)
  congr 1
  · refine Finset.sum_congr rfl fun k _ => ?_
    rw [truncf_apply, shapeCast_self]
    congr 1
    exact transpose_apply _ _ _ (ix2 k q) (ix2 q k) (fun b => match b with | ⟨0, _⟩ => rfl | ⟨1, _⟩ => rfl)
  · rw [shapeCast_self]
    exact broadcastTo_apply _ _ (ix2 p q) (ix2 0 q) (fun a => match a with
      | ⟨0, _⟩ => by show 0 = (if (1 : Nat) = 1 then 0 else p.val); rw [if_pos rfl]
      | ⟨1, _⟩ => by show q.val = (if (2048 : Nat) = 1 then 0 else q.val); rw [if_neg (by decide)])

theorem grouped_at (j : S256x64x32.Idx) :
    kGrouped P0 P1 P2 j = yBlk P0 P1 P2 (j 0) (feat (j 1) (j 2)) := by
  have h0 : (j 0).val < 256 := (j 0).isLt
  have h1 : (j 1).val < 64 := (j 1).isLt
  have h2 : (j 2).val < 32 := (j 2).isLt
  unfold kGrouped
  refine (shapeCast_apply _ _ j (ix2 (j 0) (feat (j 1) (j 2))) ?_).trans (lin_at P0 P1 P2 _)
  rw [Shape.rowMajor_val_two, Shape.rowMajor_val_three]
  show (j 0).val * 2048 + ((j 1).val * 32 + (j 2).val) = ((j 0).val * 64 + (j 1).val) * 32 + (j 2).val
  omega

/-- A rows × groups array given a trailing unit axis reads the array. -/
theorem addUnit_at (v : FVec Ideal S256x64 .f32) (j : S256x64x1.Idx) :
    shapeCast S256x64x1 v shapeCasts_S256x64_S256x64x1 j = v (ix2 (j 0) (j 1)) := by
  have h2 : (j 2).val < 1 := (j 2).isLt
  refine shapeCast_apply _ _ j (ix2 (j 0) (j 1)) ?_
  rw [Shape.rowMajor_val_two, Shape.rowMajor_val_three]
  show (j 0).val * 64 + (j 1).val = ((j 0).val * 64 + (j 1).val) * 1 + (j 2).val
  omega

/-- A per-group value broadcast over the lanes reads the group's value. -/
theorem overLanes_at (v : FVec Ideal S256x64x1 .f32) (j : S256x64x32.Idx) :
    broadcastTo S256x64x32 v broadcasts_S256x64x1_S256x64x32 j = v (ix3 (j 0) (j 1) 0) :=
  broadcastTo_apply _ _ j (ix3 (j 0) (j 1) 0) (fun a => match a with
    | ⟨0, _⟩ => by show (j 0).val = (if (256 : Nat) = 1 then 0 else (j 0).val); rw [if_neg (by decide)]
    | ⟨1, _⟩ => by show (j 1).val = (if (64 : Nat) = 1 then 0 else (j 1).val); rw [if_neg (by decide)]
    | ⟨2, _⟩ => by show 0 = (if (1 : Nat) = 1 then 0 else (j 2).val); rw [if_pos rfl])

/-- A per-group parameter (a one-row array) broadcast over rows and lanes reads the group's parameter. -/
theorem groupParam_at (p : FVec Ideal S1x64 .f32) (j : S256x64x32.Idx) :
    broadcastTo S256x64x32 (shapeCast S1x64x1 (shapeCast S1x64 p shapeCasts_S1x64_S1x64) shapeCasts_S1x64_S1x64x1) broadcasts_S1x64x1_S256x64x32 j
      = p (ix2 0 (j 1)) := by
  refine (broadcastTo_apply _ _ j (ix3 0 (j 1) 0) (fun a => match a with
    | ⟨0, _⟩ => by show 0 = (if (1 : Nat) = 1 then 0 else (j 0).val); rw [if_pos rfl]
    | ⟨1, _⟩ => by show (j 1).val = (if (64 : Nat) = 1 then 0 else (j 1).val); rw [if_neg (by decide)]
    | ⟨2, _⟩ => by show 0 = (if (1 : Nat) = 1 then 0 else (j 2).val); rw [if_pos rfl])).trans ?_
  refine (shapeCast_apply _ _ (ix3 0 (j 1) 0) (ix2 0 (j 1)) ?_).trans ?_
  · rw [Shape.rowMajor_val_two, Shape.rowMajor_val_three]
    show 0 * 64 + (j 1).val = (0 * 64 + (j 1).val) * 1 + 0
    omega
  · exact congrFun (shapeCast_self p _) _

theorem mean_at (j : S256x64x1.Idx) : kMean P0 P1 P2 j = mean (yBlk P0 P1 P2 (j 0)) (j 1) := by
  unfold kMean
  rw [divf_apply, addUnit_at, laneSum_at]
  show Ideal.div (∑ s : Fin 32, kGrouped P0 P1 P2 (ix3 (j 0) (j 1) s)) c32
    = Ideal.div (∑ s : Fin 32, yBlk P0 P1 P2 (j 0) (feat (j 1) s)) c32
  congr 1
  exact Finset.sum_congr rfl fun s _ => (grouped_at P0 P1 P2 _).trans rfl

theorem dev_at (j : S256x64x32.Idx) : kDev P0 P1 P2 j = dev (yBlk P0 P1 P2 (j 0)) (j 1) (j 2) := by
  unfold kDev
  rw [subf_apply, overLanes_at, grouped_at, mean_at]
  rfl

theorem var_at (j : S256x64x1.Idx) : kVar P0 P1 P2 j = var (yBlk P0 P1 P2 (j 0)) (j 1) := by
  unfold kVar
  rw [divf_apply, addUnit_at, laneSum_at]
  show Ideal.div (∑ s : Fin 32, mulf (kDev P0 P1 P2) (kDev P0 P1 P2) (ix3 (j 0) (j 1) s)) c32
    = Ideal.div (∑ s : Fin 32, dev (yBlk P0 P1 P2 (j 0)) (j 1) s * dev (yBlk P0 P1 P2 (j 0)) (j 1) s) c32
  congr 1
  exact Finset.sum_congr rfl fun s _ => by rw [mulf_apply, dev_at]

theorem normed_at (j : S256x64x32.Idx) :
    kNormed P0 P1 P2 P3 P4 j
      = normed (yBlk P0 P1 P2 (j 0)) (fun g => P3 (ix2 0 g)) (fun g => P4 (ix2 0 g)) (j 1) (j 2) := by
  unfold kNormed
  rw [addf_apply, mulf_apply, mulf_apply, dev_at, overLanes_at, groupParam_at, groupParam_at]
  show dev (yBlk P0 P1 P2 (j 0)) (j 1) (j 2) * Ideal.rsqrt (kVar P0 P1 P2 (ix3 (j 0) (j 1) 0) + cEps) * P3 (ix2 0 (j 1)) + P4 (ix2 0 (j 1)) = _
  rw [var_at]
  rfl

theorem flat_at (i : S256x2048.Idx) :
    kFlat P0 P1 P2 P3 P4 i
      = normed (yBlk P0 P1 P2 (i 0)) (fun g => P3 (ix2 0 g)) (fun g => P4 (ix2 0 g)) (grpOf (i 1)) (laneOf (i 1)) := by
  have h0 : (i 0).val < 256 := (i 0).isLt
  have h1 : (i 1).val < 2048 := (i 1).isLt
  unfold kFlat
  refine (shapeCast_apply _ _ i (ix3 (i 0) (grpOf (i 1)) (laneOf (i 1))) ?_).trans (normed_at P0 P1 P2 P3 P4 _)
  rw [Shape.rowMajor_val_two, Shape.rowMajor_val_three]
  show ((i 0).val * 64 + (i 1).val / 32) * 32 + (i 1).val % 32 = (i 0).val * 2048 + (i 1).val
  omega

/-- The first payload at an index. -/
theorem pay2_at (i : S256x2048.Idx) :
    k0_pay2 (F := Ideal) P0 P1 P2 P3 P4 i
      = silu (normed (yBlk P0 P1 P2 (i 0)) (fun g => P3 (ix2 0 g)) (fun g => P4 (ix2 0 g)) (grpOf (i 1)) (laneOf (i 1))) := by
  rw [pay2_eq, mulf_apply]
  show kFlat P0 P1 P2 P3 P4 i * Ideal.logistic (kFlat P0 P1 P2 P3 P4 i) = _
  rw [flat_at]
  rfl

/-! ## The whole block -/

variable (P5 : FVec Ideal S1x2048 .f32)

theorem scale_index (y : S256x2048.Idx) : Cert.KernelIdeal.Value.ix6_1 y = ix2 0 (y 1) :=
  funext fun a => by match a with | ⟨0, _⟩ => rfl | ⟨1, _⟩ => rfl

theorem scale_index' (y : S256x2048.Idx) : Cert.KernelIdeal.Value.ix6_3 y = ix2 0 (y 1) :=
  funext fun a => by match a with | ⟨0, _⟩ => rfl | ⟨1, _⟩ => rfl

/-- What the body leaves at index `y` of the output block: the specification's row function of row `y 0` of the
    block of `x`, at feature `y 1`. -/
theorem block_at (y : S256x2048.Idx) :
    Cert.KernelIdeal.Value.E6 (F := Ideal) P0 P1 P2 P3 P4 P5 y
      = outRow (fun k => P0 (ix2 (y 0) k)) P1 (fun n => P2 (ix2 0 n)) (fun g => P3 (ix2 0 g)) (fun g => P4 (ix2 0 g))
          (fun n => P5 (ix2 0 n)) (y 1) := by
  show (k0_pay2 (F := Ideal) P0 P1 P2 P3 P4 (Cert.KernelIdeal.Value.ix6_0 y) * P5 (Cert.KernelIdeal.Value.ix6_1 y))
      * Ideal.logistic (k0_pay2 (F := Ideal) P0 P1 P2 P3 P4 (Cert.KernelIdeal.Value.ix6_2 y) * P5 (Cert.KernelIdeal.Value.ix6_3 y)) = _
  rw [pay2_at, scale_index, scale_index']
  rfl

end Cert.KernelIdeal.BodyValue

end
-- ==== Proof.Blocks.lean ====
/-
  From blocks to the array, and the kernel's run.

  The grid has 64 points. Point `t` works on rows `256 t … 256 t + 255`: the block of `x` and the output block sit at
  block index `t` on the row axis, and the weight, bias, group parameters and feature scale are each one whole block
  at block index 0. So what point `t` writes back is block `t` of ONE whole-array function of the arrays as the
  region finds them, the 64 blocks tile the output (row `r` is in block `r / 256`), and the array after the run is
  that function. The arrays the region finds are the arguments themselves but for host-side layout: the weight's
  change of float format (the identity on extended reals) and four reshapes of a vector to a one-row array.
-/
import proofs.«126139_j3556232922214_1_alg».proof.Proof.Gen.KernelIdeal.Value
import proofs.«126139_j3556232922214_1_alg».proof.Proof.Kern
import proofs.«126139_j3556232922214_1_alg».proof.Proof.Spec
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.ValueIdx
open Idealize.ShloMosaic.Pipeline (Dat)
open scoped BigOperators

namespace Cert.KernelIdeal.ArrayValue

open Cert.KernelIdeal Cert.KernelIdeal.Gen Cert.GroupNormSilu

/-- The row function depends on its arguments only through their values. -/
theorem outRow_congr {xr xr' : Fin 2048 → EReal} {w w' : (⟨2, ![2048, 2048]⟩ : Shape).Idx → EReal} {b b' : Fin 2048 → EReal}
    {gw gw' gb gb' : Fin 64 → EReal} {mw mw' : Fin 2048 → EReal} {n n' : Fin 2048}
    (h0 : xr = xr') (h1 : w = w') (h2 : b = b') (h3 : gw = gw') (h4 : gb = gb') (h5 : mw = mw') (h6 : n = n') :
    outRow xr w b gw gb mw n = outRow xr' w' b' gw' gb' mw' n' := by
  subst h0 h1 h2 h3 h4 h5 h6; rfl

theorem zero_offset : (![0, 0] : Fin 2 → Nat) = fun _ => 0 := funext fun a => by fin_cases a <;> rfl

/-- What the body's one store leaves in the output block, over block variables: the row function of row `y 0` of the
    block of `x`, at feature `y 1`. -/
theorem stored_at (x0 : Vec Ideal S256x2048 .f32) (x1 : Vec Ideal S2048x2048 .bf16) (x2 : Vec Ideal S1x2048 .f32)
    (x3 x4 : Vec Ideal S1x64 .f32) (x5 : Vec Ideal S1x2048 .f32) (y : S256x2048.Idx) :
    out0_6 (F := Ideal) x0 x1 x2 x3 x4 x5 y
      = outRow (fun k => x0 (ix2 (y 0) k)) x1 (fun n => x2 (ix2 0 n)) (fun g => x3 (ix2 0 g)) (fun g => x4 (ix2 0 g))
          (fun n => x5 (ix2 0 n)) (y 1) := by
  -- a load of a whole block reads the block
  have l0 : View.ld x0 r0_0 = x0 := View.ld_unit_zero (Val := Elt Ideal) zero_offset _ x0
  have l1 : View.ld x1 r0_1 = x1 := View.ld_unit_zero (Val := Elt Ideal) zero_offset _ x1
  have l2 : View.ld x2 r0_2 = x2 := View.ld_unit_zero (Val := Elt Ideal) zero_offset _ x2
  have l3 : View.ld x3 r0_3 = x3 := View.ld_unit_zero (Val := Elt Ideal) zero_offset _ x3
  have l4 : View.ld x4 r0_3 = x4 := View.ld_unit_zero (Val := Elt Ideal) zero_offset _ x4
  have l5 : View.ld x5 r0_2 = x5 := View.ld_unit_zero (Val := Elt Ideal) zero_offset _ x5
  unfold out0_6
  rw [Value.canon6_eq, BodyValue.block_at, l0, l1, l2, l3, l4, l5]

variable (m : (ℓ : Loc nD τ sig) → Buf (Elt Ideal) ℓ) (ρ : Dev nD → PrngReg)

/-- The printed index maps, decided over the 64 points: the block of `x` moves with the output block along the rows,
    every other window stays at block 0, and the output's row block index is at most 63. -/
theorem block_indices : ∀ t : Fin cfg0.N,
    win0_0.index t (0 : Fin 2) = win0_6.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 ∧ win0_6.index t (0 : Fin 2) ≤ 63 :=
  (by decide +kernel : ∀ t : Fin grid0.N, _)

/-- Every row block is some point's. -/
theorem block_onto : ∀ q : Fin 64, ∃ t : Fin cfg0.N, win0_6.index t = ![q.val, 0] :=
  (by decide +kernel : ∀ q : Fin 64, ∃ t : Fin grid0.N, win0_6.index t = ![q.val, 0])

/-- The result as ONE function of the arrays as the region finds them. -/
def GV (c : Dev nD) : S16384x2048.Idx → EReal := fun i =>
  outRow (fun k => V m c main_arg0 (ix2 (i 0) k)) (V m c main_v0) (fun n => V m c main_v1 (ix2 0 n))
    (fun g => V m c main_v2 (ix2 0 g)) (fun g => V m c main_v3 (ix2 0 g)) (fun n => V m c main_v4 (ix2 0 n)) (i 1)

/-- WHAT POINT `t` WRITES BACK is block `t` of that function. -/
theorem flushed_eq (c : Dev nD) (t : Fin cfg0.N) :
    (dats m 0 c).flushed 6 t = ((cfg0.win 6).blk t).view.read (Elt Ideal) (GV m c) := by
  rw [Value.flushed6]
  obtain ⟨e00, e01, e10, e11, e20, e21, e30, e31, e40, e41, e50, e51, e61, e6b⟩ := block_indices t
  funext y
  show out0_6 (F := Ideal) (iblk m c 0 t) (iblk m c 1 t) (iblk m c 2 t) (iblk m c 3 t) (iblk m c 4 t) (iblk m c 5 t) y
    = GV m c (((cfg0.win 6).blk t).view.emb y)
  have hy0 : (y 0).val < 256 := (y 0).isLt
  have hy1 : (y 1).val < 2048 := (y 1).isLt
  -- the block of `x`: row `y 0` of the block is row `256 t + y 0` of the array
  have hx : (fun k : Fin 2048 => iblk m c 0 t (ix2 (y 0) k))
      = fun k : Fin 2048 => V m c main_arg0 (ix2 ((((cfg0.win 6).blk t).view.emb y) 0) k) := funext fun k => by
    show V m c main_arg0 (((cfg0.win 0).blk t).view.emb (ix2 (y 0) k)) = _
    congr 1; funext a; apply Fin.ext
    match a with
    | ⟨0, _⟩ => show win0_0.index t (0 : Fin 2) * 256 + 1 * (y 0).val = win0_6.index t (0 : Fin 2) * 256 + 1 * (y 0).val; omega
    | ⟨1, _⟩ => show win0_0.index t (1 : Fin 2) * 2048 + 1 * k.val = k.val; omega
  -- every other window's block is its whole array
  have h1 : iblk m c 1 t = V m c main_v0 := funext fun i => by
    show V m c main_v0 (((cfg0.win 1).blk t).view.emb i) = V m c main_v0 i
    congr 1; funext a; apply Fin.ext
    match a with
    | ⟨0, _⟩ => show win0_1.index t (0 : Fin 2) * 2048 + 1 * (i 0).val = (i 0).val; omega
    | ⟨1, _⟩ => show win0_1.index t (1 : Fin 2) * 2048 + 1 * (i 1).val = (i 1).val; omega
  have h2 : iblk m c 2 t = V m c main_v1 := funext fun i => by
    show V m c main_v1 (((cfg0.win 2).blk t).view.emb i) = V m c main_v1 i
    congr 1; funext a; apply Fin.ext
    match a with
    | ⟨0, _⟩ => show win0_2.index t (0 : Fin 2) * 1 + 1 * (i 0).val = (i 0).val; omega
    | ⟨1, _⟩ => show win0_2.index t (1 : Fin 2) * 2048 + 1 * (i 1).val = (i 1).val; omega
  have h3 : iblk m c 3 t = V m c main_v2 := funext fun i => by
    show V m c main_v2 (((cfg0.win 3).blk t).view.emb i) = V m c main_v2 i
    congr 1; funext a; apply Fin.ext
    match a with
    | ⟨0, _⟩ => show win0_3.index t (0 : Fin 2) * 1 + 1 * (i 0).val = (i 0).val; omega
    | ⟨1, _⟩ => show win0_3.index t (1 : Fin 2) * 64 + 1 * (i 1).val = (i 1).val; omega
  have h4 : iblk m c 4 t = V m c main_v3 := funext fun i => by
    show V m c main_v3 (((cfg0.win 4).blk t).view.emb i) = V m c main_v3 i
    congr 1; funext a; apply Fin.ext
    match a with
    | ⟨0, _⟩ => show win0_4.index t (0 : Fin 2) * 1 + 1 * (i 0).val = (i 0).val; omega
    | ⟨1, _⟩ => show win0_4.index t (1 : Fin 2) * 64 + 1 * (i 1).val = (i 1).val; omega
  have h5 : iblk m c 5 t = V m c main_v4 := funext fun i => by
    show V m c main_v4 (((cfg0.win 5).blk t).view.emb i) = V m c main_v4 i
    congr 1; funext a; apply Fin.ext
    match a with
    | ⟨0, _⟩ => show win0_5.index t (0 : Fin 2) * 1 + 1 * (i 0).val = (i 0).val; omega
    | ⟨1, _⟩ => show win0_5.index t (1 : Fin 2) * 2048 + 1 * (i 1).val = (i 1).val; omega
  -- the feature is the same inside the block and in the array
  have hn : y 1 = (((cfg0.win 6).blk t).view.emb y) 1 := Fin.ext (by
    show (y 1).val = win0_6.index t (1 : Fin 2) * 2048 + 1 * (y 1).val; omega)
  refine (stored_at _ _ _ _ _ _ y).trans ?_
  exact outRow_congr hx h1 (by rw [h2]) (by rw [h3]) (by rw [h4]) (by rw [h5]) hn

/-- An index of the array is in point `t`'s block iff each coordinate is in the block's range on its axis. -/
theorem mem_blk (t : Fin cfg0.N) (i : S16384x2048.Idx) :
    i ∈ ((cfg0.win 6).blk t).view.set ↔ ∀ a : Fin 2, win0_6.index t a * S256x2048.size a ≤ (i a).val ∧ (i a).val < win0_6.index t a * S256x2048.size a + S256x2048.size a := by
  show i ∈ ((View.whole main_v5).slice (win0_6.rect t)).set ↔ _
  rw [View.set_slice_whole, Rect.mem_set_unit]
  exact Iff.rfl

/-- Every index of the output is in some point's block: row `r` in the block of point `r / 256`. -/
theorem covered (i : S16384x2048.Idx) :
    ∃ t : Fin cfg0.N, (cfg0.win 6).flush t = true ∧ i ∈ ((cfg0.win 6).blk t).view.set := by
  have hi0 : (i 0).val < 16384 := (i 0).isLt
  have hi1 : (i 1).val < 2048 := (i 1).isLt
  obtain ⟨t, ht⟩ := block_onto ⟨(i 0).val / 256, by omega⟩
  have q0 : win0_6.index t (0 : Fin 2) = (i 0).val / 256 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 2048 ≤ (i 1).val ∧ (i 1).val < win0_6.index t (1 : Fin 2) * 2048 + 2048; omega

/-- THE ARRAY after the run is that function of the arrays as the region finds them. -/
theorem final (c : Dev nD) : (dats m 0 c).arrAt 6 cfg0.N = GV m c :=
  (dats m 0 c).arrAt_eq_of_cover 6 (GV m c) (fun t _ => flushed_eq m c t) covered

/-! ## The arrays the region finds, in terms of the arguments -/

/-- A vector of 2048 reshaped to one row reads the vector. -/
theorem oneRow2048_at (x : FVec Ideal S2048 .f32) (n : Fin 2048) :
    shapeCast S1x2048 x shapeCasts_S2048_S1x2048 (ix2 0 n) = x (ix1 n) :=
  shapeCast_apply _ _ (ix2 0 n) (ix1 n) (by
    rw [Shape.rowMajor_val_one, Shape.rowMajor_val_two]
    show n.val = 0 * 2048 + n.val
    omega)

/-- A vector of 64 reshaped to one row reads the vector. -/
theorem oneRow64_at (x : FVec Ideal S64 .f32) (g : Fin 64) :
    shapeCast S1x64 x shapeCasts_S64_S1x64 (ix2 0 g) = x (ix1 g) :=
  shapeCast_apply _ _ (ix2 0 g) (ix1 g) (by
    rw [Shape.rowMajor_val_one, Shape.rowMajor_val_two]
    show g.val = 0 * 64 + g.val
    omega)

/-- The weight as the region finds it: its format changed, which is the identity on extended reals. -/
theorem entry_weight (c : Dev nD) :
    (V m c main_v0 : S2048x2048.Idx → EReal) = (m ((c : Thread nD τ).loc main_arg1) : S2048x2048.Idx → EReal) := by
  dsimp only [V, hostOps0]; after_results; rfl

theorem entry_bias (c : Dev nD) (n : Fin 2048) :
    V m c main_v1 (ix2 0 n) = m ((c : Thread nD τ).loc main_arg2) (ix1 n) := by
  have e : (V m c main_v1 : S1x2048.Idx → EReal) = shapeCast S1x2048 (m ((c : Thread nD τ).loc main_arg2)) shapeCasts_S2048_S1x2048 := by
    dsimp only [V, hostOps0]; after_results; rfl
  exact (congrFun e (ix2 0 n)).trans (oneRow2048_at _ n)

theorem entry_groupWeight (c : Dev nD) (g : Fin 64) :
    V m c main_v2 (ix2 0 g) = m ((c : Thread nD τ).loc main_arg3) (ix1 g) := by
  have e : (V m c main_v2 : S1x64.Idx → EReal) = shapeCast S1x64 (m ((c : Thread nD τ).loc main_arg3)) shapeCasts_S64_S1x64 := by
    dsimp only [V, hostOps0]; after_results; rfl
  exact (congrFun e (ix2 0 g)).trans (oneRow64_at _ g)

theorem entry_groupBias (c : Dev nD) (g : Fin 64) :
    V m c main_v3 (ix2 0 g) = m ((c : Thread nD τ).loc main_arg4) (ix1 g) := by
  have e : (V m c main_v3 : S1x64.Idx → EReal) = shapeCast S1x64 (m ((c : Thread nD τ).loc main_arg4)) shapeCasts_S64_S1x64 := by
    dsimp only [V, hostOps0]; after_results; rfl
  exact (congrFun e (ix2 0 g)).trans (oneRow64_at _ g)

theorem entry_scale (c : Dev nD) (n : Fin 2048) :
    V m c main_v4 (ix2 0 n) = m ((c : Thread nD τ).loc main_arg5) (ix1 n) := by
  have e : (V m c main_v4 : S1x2048.Idx → EReal) = shapeCast S1x2048 (m ((c : Thread nD τ).loc main_arg5)) shapeCasts_S2048_S1x2048 := by
    dsimp only [V, hostOps0]; after_results; rfl
  exact (congrFun e (ix2 0 n)).trans (oneRow2048_at _ n)

/-- So the function of the region-entry arrays is the specification of the arguments. -/
theorem GV_eq (c : Dev nD) :
    GV m c = G (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  funext i
  unfold GV G
  refine outRow_congr ?_ (entry_weight m c) ?_ ?_ ?_ ?_ rfl
  · funext k; exact congrFun (V_main_arg0 m c) _
  · funext n; exact entry_bias m c n
  · funext g; exact entry_groupWeight m c g
  · funext g; exact entry_groupBias m c g
  · funext n; exact entry_scale m c n

/-! ## The run, read -/

/-- The kernel's run: the result array ends at the specification of the arguments, the arguments unchanged. -/
theorem run : θ_run defs (onTc (τ := τ) (main (F := Ideal))) ⟨m, fun _ => 0, ρ⟩ fun r => ∀ c : Dev nD,
      r.2.mem ((c : Thread nD τ).loc main_v5)
        = G (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final m c).trans (GV_eq m c)), (h c).2⟩)
    (Value.run_blocks m ρ)

end Cert.KernelIdeal.ArrayValue

end
-- ==== Proof.lean ====
/-
  A fused linear layer + GroupNorm + SiLU · scale · SiLU kernel against its jnp reference, over the reals.

  Both programs compute, for each of the 16384 rows of `x`: the linear layer `y n = (∑ k, x k · w n k) + b n` over 2048
  features; in each of the 64 groups of 32 consecutive features the mean and the biased variance; the centred entry times
  `(var + ε)^(-1/2)`, times the group's weight, plus the group's bias; then `a ↦ a · σ(a)` (σ the logistic function), a
  per-feature scale, and `a ↦ a · σ(a)` again. That one function of the six argument arrays is `Cert.GroupNormSilu.G`
  (Proof/Spec.lean).

  The kernel tiles the rows in 64 blocks of 256 and does all of this inside one body per block; what differs from the
  reference is spelling only, and on the extended reals none of it changes a value: the kernel rounds `x` and `w` to a
  shorter float format before the matrix product (the identity here), transposes the weight and contracts rows with
  columns where the reference contracts rows with rows (the same sum), sums lanes where the reference reduces an axis
  from a zero initial value, and applies the logistic function as one operation where the reference writes
  `1 / (1 + e^(-a))` (its definition). ε and the divisor 32 are the same words in both programs. No step moves a factor
  across a sum or cancels anything, so the finiteness of the inputs is never used.

  Proof/Ref.lean reads the reference's result at an index as `G`; Proof/Kern.lean reads what the kernel body leaves in
  an output block as `G`'s row function of the block's rows; Proof/Blocks.lean puts the 64 blocks together into the
  whole array and states the kernel's run. Here the five claims are assembled: the two kernels' frames and the
  reference's run are imported, nothing was rewritten when the kernel was idealized, and both runs end at the same `G`
  of arguments that agree.
-/
import proofs.«126139_j3556232922214_1_alg».proof.Defs
import proofs.«126139_j3556232922214_1_alg».proof.Proof.Gen.Kernel
import proofs.«126139_j3556232922214_1_alg».proof.Proof.Gen.Kernel.Skeleton
import proofs.«126139_j3556232922214_1_alg».proof.Proof.Gen.Kernel.Launch
import proofs.«126139_j3556232922214_1_alg».proof.Proof.Gen.Kernel.Points
import proofs.«126139_j3556232922214_1_alg».proof.Proof.Gen.Kernel.Frame
import proofs.«126139_j3556232922214_1_alg».proof.Proof.Gen.KernelIdeal
import proofs.«126139_j3556232922214_1_alg».proof.Proof.Gen.KernelIdeal.Skeleton
import proofs.«126139_j3556232922214_1_alg».proof.Proof.Gen.KernelIdeal.Launch
import proofs.«126139_j3556232922214_1_alg».proof.Proof.Gen.KernelIdeal.Points
import proofs.«126139_j3556232922214_1_alg».proof.Proof.Gen.KernelIdeal.Frame
import proofs.«126139_j3556232922214_1_alg».proof.Proof.Gen.ReferenceIdeal
import proofs.«126139_j3556232922214_1_alg».proof.Proof.Gen.Pre_finite_inputs
import proofs.«126139_j3556232922214_1_alg».proof.Proof.Gen.KernelIdeal.Value
import proofs.«126139_j3556232922214_1_alg».proof.Proof.Gen.ReferenceIdeal.Run
import proofs.«126139_j3556232922214_1_alg».proof.Proof.Gen.ReferenceIdeal.Read
import proofs.«126139_j3556232922214_1_alg».proof.Proof.Spec
import proofs.«126139_j3556232922214_1_alg».proof.Proof.Ref
import proofs.«126139_j3556232922214_1_alg».proof.Proof.Kern
import proofs.«126139_j3556232922214_1_alg».proof.Proof.Blocks
import Idealize.ShloMosaic.Adequacy
import Idealize.ShloMosaic.Init

noncomputable section

namespace Cert.Proof

open Idealize.ShloMosaic Idealize.SL.Sem Cert.Kernel

/-- The word-level kernel terminates, faults nowhere and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: nothing was rewritten. -/
theorem preserves : Cert.preserves_Kernel_KernelIdeal := trivial

/-- From arguments that agree, the kernel's result array and the reference's both end at `G` of the arguments. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq, Cert.ReferenceIdeal.RefValue.result_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
